-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x11008 : Shape := ⟨2, ![512, 11008]⟩
abbrev S32x1376 : Shape := ⟨2, ![32, 1376]⟩
abbrev S32x11008 : Shape := ⟨2, ![32, 11008]⟩
abbrev S4096 : Shape := ⟨1, ![4096]⟩
abbrev S_ : Shape := ⟨0, ![]⟩

class Facts : Prop where
  bcast_S_S32x11008 : S_.BroadcastsInDim S32x11008 (![] : Fin 0 → Fin S32x11008.rank)
  reducesTo_S32x11008_S_d0_1 : S32x11008.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : IVec S512x11008 32) (main_arg1 : IVec S32x1376 32) (main_arg2 : FVec F S32x11008 .f32) (main_arg3 : IVec S4096 32) : IVec S_ 1 :=
  let main_v0 : FVec F S32x11008 .f32 := Host.absf main_arg2
  let main_cst : FVec F S_ .f32 := constant S_ .f32 0x7F800000#32
  let main_v1 : FVec F S32x11008 .f32 := broadcastInDim S32x11008 ![] bcast_S_S32x11008 main_cst
  let main_v2 : IVec S32x11008 1 := cmpf .olt main_v0 main_v1
  let main_c : IVec S_ 1 := constantI S_ 1 1#1
  let main_v3 : IVec S_ 1 := (fun x v => Host.reduce IntOp.andi x v reducesTo_S32x11008_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg3 main_v4
  let main_c_1 : IVec S_ 32 := constantI S_ 32 32#32
  let main_v6 : IVec S4096 32 := broadcastInDim S4096 ![] bcast_S_S4096 main_c_1
  let main_v7 : IVec S4096 1 := cmpi .slt main_arg3 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S512x11008 : Shape := ⟨2, ![512, 11008]⟩
abbrev S32x1376 : Shape := ⟨2, ![32, 1376]⟩
abbrev S32x11008 : Shape := ⟨2, ![32, 11008]⟩
abbrev S4096 : Shape := ⟨1, ![4096]⟩
abbrev S8 : Shape := ⟨1, ![8]⟩
abbrev S_ : Shape := ⟨0, ![]⟩
abbrev S32x1376x1 : Shape := ⟨3, ![32, 1376, 1]⟩
abbrev S1x1x8 : Shape := ⟨3, ![1, 1, 8]⟩
abbrev S32x1376x8 : Shape := ⟨3, ![32, 1376, 8]⟩
abbrev S4096x1 : Shape := ⟨2, ![4096, 1]⟩
abbrev S32 : Shape := ⟨1, ![32]⟩
abbrev S1x32 : Shape := ⟨2, ![1, 32]⟩
abbrev S4096x32 : Shape := ⟨2, ![4096, 32]⟩
abbrev S4096x11008 : Shape := ⟨2, ![4096, 11008]⟩
abbrev S256x32 : Shape := ⟨2, ![256, 32]⟩
abbrev S32x5504 : Shape := ⟨2, ![32, 5504]⟩
abbrev S256x5504 : Shape := ⟨2, ![256, 5504]⟩
abbrev S32x8x5504 : Shape := ⟨3, ![32, 8, 5504]⟩
abbrev S32x1x5504 : Shape := ⟨3, ![32, 1, 5504]⟩

abbrev nBuf : Space → Nat
  | .hbm => 29
  | .vmem => 10
  | .smem => 0
  | _ => 0

abbrev bufTy : (tb : Table) → Fin (tcTables nBuf tb) → BufTy
  | .hbm, ⟨0, _⟩ => ⟨S512x11008, .i32⟩
  | .hbm, ⟨1, _⟩ => ⟨S32x1376, .i32⟩
  | .hbm, ⟨2, _⟩ => ⟨S32x11008, .f32⟩
  | .hbm, ⟨3, _⟩ => ⟨S4096, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S32x1376x1, .i32⟩
  | .hbm, ⟨12, _⟩ => ⟨S1x1x8, .i32⟩
  | .hbm, ⟨13, _⟩ => ⟨S32x1376x8, .i32⟩
  | .hbm, ⟨14, _⟩ => ⟨S32x1376x8, .i32⟩
  | .hbm, ⟨15, _⟩ => ⟨S32x1376x8, .i32⟩
  | .hbm, ⟨16, _⟩ => ⟨S_, .i32⟩
  | .hbm, ⟨17, _⟩ => ⟨S32x1376x8, .i32⟩
  | .hbm, ⟨18, _⟩ => ⟨S32x1376x8, .i32⟩
  | .hbm, ⟨19, _⟩ => ⟨S32x11008, .i32⟩
  | .hbm, ⟨20, _⟩ => ⟨S32x11008, .f32⟩
  | .hbm, ⟨21, _⟩ => ⟨S4096x1, .i32⟩
  | .hbm, ⟨22, _⟩ => ⟨S32, .i32⟩
  | .hbm, ⟨23, _⟩ => ⟨S1x32, .i32⟩
  | .hbm, ⟨24, _⟩ => ⟨S4096x32, .i32⟩
  | .hbm, ⟨25, _⟩ => ⟨S4096x32, .i32⟩
  | .hbm, ⟨26, _⟩ => ⟨S4096x32, .i1⟩
  | .hbm, ⟨27, _⟩ => ⟨S4096x32, .f32⟩
  | .hbm, ⟨28, _⟩ => ⟨S4096x11008, .f32⟩
  | .local _ .vmem, ⟨0, _⟩ => ⟨S256x32, .f32⟩
  | .local _ .vmem, ⟨1, _⟩ => ⟨S256x32, .f32⟩
  | .local _ .vmem, ⟨2, _⟩ => ⟨S32x5504, .i32⟩
  | .local _ .vmem, ⟨3, _⟩ => ⟨S32x5504, .i32⟩
  | .local _ .vmem, ⟨4, _⟩ => ⟨S32x5504, .f32⟩
  | .local _ .vmem, ⟨5, _⟩ => ⟨S32x5504, .f32⟩
  | .local _ .vmem, ⟨6, _⟩ => ⟨S32x5504, .f32⟩
  | .local _ .vmem, ⟨7, _⟩ => ⟨S32x5504, .f32⟩
  | .local _ .vmem, ⟨8, _⟩ => ⟨S256x5504, .f32⟩
  | .local _ .vmem, ⟨9, _⟩ => ⟨S256x5504, .f32⟩
  | _, _ => ⟨S512x11008, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S32x5504 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x5504 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S4096_S4096x1_0 : S4096.BroadcastsInDim S4096x1 (![0] : Fin 1 → Fin S4096x1.rank)
  bcast_S32_S1x32_1 : S32.BroadcastsInDim S1x32 (![1] : Fin 1 → Fin S1x32.rank)
  bcast_S4096x1_S4096x32_0_1 : S4096x1.BroadcastsInDim S4096x32 (![0, 1] : Fin 2 → Fin S4096x32.rank)
  bcast_S1x32_S4096x32_0_1 : S1x32.BroadcastsInDim S4096x32 (![0, 1] : Fin 2 → Fin S4096x32.rank)
  inb_S32x5504_S32x5504_0_0 : ∀ a, (![0, 0] : Fin 2 → Nat) a + S32x5504.size a ≤ S32x5504.size a
  h_S32x5504 : 0 < S32x5504.numel
  iota_S32x8x5504_d1_w32 : S32x8x5504.Iotas .tc 32 [1]
  shapeCasts_S32x5504_S32x1x5504 : S32x5504.ShapeCasts S32x1x5504
  broadcasts_S32x1x5504_S32x8x5504 : S32x1x5504.Broadcasts S32x8x5504
  shapeCasts_S32x8x5504_S256x5504 : S32x8x5504.ShapeCasts S256x5504
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S32x5504_S32x5504 : S32x5504.ShapeCasts S32x5504
  inb_S256x5504_S256x5504_0_0 : ∀ a, (![0, 0] : Fin 2 → Nat) a + S256x5504.size a ≤ S256x5504.size a
  h_S256x5504 : 0 < S256x5504.numel
  dot_S256x32_S32x5504_S256x5504_1_0_0_1_n_n_wf : DotDims.WF S256x32 S32x5504 S256x5504 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S4096x32.size a
  hwx0_0 : ∀ i : grid0.Coords, EltTy.bits .f32 = 32 ∨ (Rect.block (s := S4096x32) S256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x5504.size a ≤ S512x11008.size a
  hwx0_1 : ∀ i : grid0.Coords, EltTy.bits .i32 = 32 ∨ (Rect.block (s := S512x11008) S32x5504.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x5504.size a ≤ S32x11008.size a
  hwx0_2 : ∀ i : grid0.Coords, EltTy.bits .f32 = 32 ∨ (Rect.block (s := S32x11008) S32x5504.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x5504.size a ≤ S32x11008.size a
  hwx0_3 : ∀ i : grid0.Coords, EltTy.bits .f32 = 32 ∨ (Rect.block (s := S32x11008) S32x5504.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x5504.size a ≤ S4096x11008.size a
  hwx0_4 : ∀ i : grid0.Coords, EltTy.bits .f32 = 32 ∨ (Rect.block (s := S4096x11008) S256x5504.size (cc0_transform_4 i) (hinb0_4 i)).WholeWords (EltTy.packing .f32)

variable [Facts₀]

def dot_S256x32_S32x5504_S256x5504_1_0_0_1_n_n : DotDims S256x32 S32x5504 S256x5504 where
  lhsContracting := [1]
  rhsContracting := [0]
  lhsNonContracting := [0]
  rhsNonContracting := [1]
  lhsBatch := []
  rhsBatch := []
  wf := dot_S256x32_S32x5504_S256x5504_1_0_0_1_n_n_wf

abbrev win0_0 : Pipeline.Window sig grid0 :=
  Pipeline.Window.ofSpec (Memref.whole main_v20) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x5504.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x5504.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S32x5504.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S256x5504.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x11008 : Shape := ⟨2, ![512, 11008]⟩
abbrev S32x1376 : Shape := ⟨2, ![32, 1376]⟩
abbrev S32x11008 : Shape := ⟨2, ![32, 11008]⟩
abbrev S4096 : Shape := ⟨1, ![4096]⟩
abbrev S8 : Shape := ⟨1, ![8]⟩
abbrev S_ : Shape := ⟨0, ![]⟩
abbrev S32x1376x1 : Shape := ⟨3, ![32, 1376, 1]⟩
abbrev S1x1x8 : Shape := ⟨3, ![1, 1, 8]⟩
abbrev S32x1376x8 : Shape := ⟨3, ![32, 1376, 8]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S512x11008, .i32⟩
  | .hbm, ⟨1, _⟩ => ⟨S32x1376, .i32⟩
  | .hbm, ⟨2, _⟩ => ⟨S32x11008, .f32⟩
  | .hbm, ⟨3, _⟩ => ⟨S4096, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S32x1376x1, .i32⟩
  | .hbm, ⟨12, _⟩ => ⟨S1x1x8, .i32⟩
  | .hbm, ⟨13, _⟩ => ⟨S32x1376x8, .i32⟩
  | .hbm, ⟨14, _⟩ => ⟨S32x1376x8, .i32⟩
  | .hbm, ⟨15, _⟩ => ⟨S32x1376x8, .i32⟩
  | .hbm, ⟨16, _⟩ => ⟨S_, .i32⟩
  | .hbm, ⟨17, _⟩ => ⟨S32x1376x8, .i32⟩
  | .hbm, ⟨18, _⟩ => ⟨S32x1376x8, .i32⟩
  | .hbm, ⟨19, _⟩ => ⟨S32x11008, .i32⟩
  | .hbm, ⟨20, _⟩ => ⟨S512x1x11008, .i32⟩
  | .hbm, ⟨21, _⟩ => ⟨S1x8x1, .i32⟩
  | .hbm, ⟨22, _⟩ => ⟨S512x8x11008, .i32⟩
  | .hbm, ⟨23, _⟩ => ⟨S512x8x11008, .i32⟩
  | .hbm, ⟨24, _⟩ => ⟨S512x8x11008, .i32⟩
  | .hbm, ⟨25, _⟩ => ⟨S_, .i32⟩
  | .hbm, ⟨26, _⟩ => ⟨S512x8x11008, .i32⟩
  | .hbm, ⟨27, _⟩ => ⟨S512x8x11008, .i32⟩
  | .hbm, ⟨28, _⟩ => ⟨S4096x11008, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S4096x11008, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4096x11008, .i32⟩
  | .hbm, ⟨47, _⟩ => ⟨S4096x11008, .i32⟩
  | .hbm, ⟨48, _⟩ => ⟨S4096x11008, .f32⟩
  | .hbm, ⟨49, _⟩ => ⟨S4096x11008, .f32⟩
  | _, _ => ⟨S512x11008, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S_S4096 : S_.BroadcastsInDim S4096 (![] : Fin 0 → Fin S4096.rank)
  bcast_S4096_S4096x1_0 : S4096.BroadcastsInDim S4096x1 (![0] : Fin 1 → Fin S4096x1.rank)
  gather_S32x11008_S4096x1_S4096x11008_1_0_n_n_0_1_111008_wf : GatherDims.WF S32x11008 S4096x1 S4096x11008 [1] [0] [] [0] [] 1 ![1, 11008]

variable [Facts₀]

def gather_S32x11008_S4096x1_S4096x11008_1_0_n_n_0_1_111008 : GatherDims S32x11008 S4096x1 S4096x11008 where
  offsetDims := [1]
  collapsedSliceDims := [0]
  operandBatchingDims := []
  startIndicesBatchingDims := []
  startIndexMap := [0]
  indexVectorDim := 1
  sliceSizes := ![1, 11008]
  wf := gather_S32x11008_S4096x1_S4096x11008_1_0_n_n_0_1_111008_wf

class Facts : Prop extends Facts₀ where

variable [Facts]
-- ==== Proof.Spec.lean ====
/-
  A GPTQ 4-bit weight matrix dequantised: what both programs compute, entry by entry, and the two small laws that
  join their spellings.

  A packed 32-bit word holds eight 4-bit fields; field b of the word x is (x >> 4 b) & 15, a number in 0 … 15
  (`nibble`). Row k of the [4096, 11008] result belongs to the quantisation group g(k) = g_idx[k], one of 32, and

      out[k, n] = scales[g(k), n] · (w[k, n] − z[g(k), n]),      w[k, n] = field (k mod 8) of qweight[k / 8, n],

  z the [32, 11008] table of zero points (itself unpacked from qzeros by the host operations both programs share,
  so it stays a variable here). One program selects row g(k) of a table by indexing; the other multiplies the
  table by a one-hot row, e(k, g) = 1 if g = g(k) and 0 otherwise, and sums over the 32 groups: on the extended
  reals 0 · x = 0 and 1 · x = x for every x, infinite or not, so the sum is the selected entry (`sum_onehot_mul`).
  One program subtracts the two fields as 32-bit integers and converts the difference; the other converts each and
  subtracts: the fields lie in 0 … 15, so the integer difference does not wrap and its value is the difference of
  the values (`sitofp_sub_of_le`).
-/
import Idealize.ShloMosaic.PureOps
import Idealize.ShloMosaic.PureOps.Ideal.Laws
import Idealize.ShloMosaic.Lib.ValueIdx

noncomputable section

namespace Cert.Dequant

open Idealize.ShloMosaic Idealize.ShloMosaic.ValueIdx

/-- Field `b` (4 bits) of the packed word `x`: `(x >> 4 b) & 15`. -/
def nibble (x : BitVec 32) (b : Fin 8) : BitVec 32 :=
  IntOp.andi (IntOp.shrsi .host x (BitVec.ofNat 32 (4 * b.val))) 15#32

/-- A word masked with 15 is at most 15. -/
theorem andi_15_le (y : BitVec 32) : (IntOp.andi y 15#32).toNat ≤ 15 := by
  unfold IntOp.andi
  rw [BitVec.toNat_and]
  exact Nat.and_le_right

theorem nibble_le (x : BitVec 32) (b : Fin 8) : (nibble x b).toNat ≤ 15 := andi_15_le _

/-- The shift amount `4 b` as the reference spells it, `0 + 4 · b`, and as the kernel does, `b · 4`. -/
theorem shamt_host : ∀ b : Fin 8, IntOp.addi 0#32 (IntOp.muli 4#32 (BitVec.ofNat 32 b.val)) = BitVec.ofNat 32 (4 * b.val) := by
  decide

theorem shamt_kernel : ∀ b : Fin 8, IntOp.muli (BitVec.ofNat 32 b.val) 4#32 = BitVec.ofNat 32 (4 * b.val) := by
  decide

/-- Two words in 0 … 15: the 32-bit difference read signed is the difference of the two numbers, so converting the
    difference is subtracting the conversions. -/
theorem sitofp_sub_of_le (a b : BitVec 32) (ha : a.toNat ≤ 15) (hb : b.toNat ≤ 15) :
    (FloatOps.sitofp .f32 (IntOp.subi a b) : Ideal .f32) = (FloatOps.sitofp .f32 a : Ideal .f32) - (FloatOps.sitofp .f32 b : Ideal .f32) := by
  show (((a - b).toInt : ℝ) : EReal) = ((a.toInt : ℝ) : EReal) - ((b.toInt : ℝ) : EReal)
  have h : (a - b).toInt = a.toInt - b.toInt := by
    rw [BitVec.toInt_sub]
    have h1 : a.toInt = (a.toNat : ℤ) := BitVec.toInt_eq_toNat_of_lt (by omega)
    have h2 : b.toInt = (b.toNat : ℤ) := BitVec.toInt_eq_toNat_of_lt (by omega)
    rw [h1, h2]
    have : ((a.toNat : ℤ) - (b.toNat : ℤ)).bmod (2 ^ 32) = (a.toNat : ℤ) - (b.toNat : ℤ) := by
      apply Int.bmod_eq_of_le <;> omega
    exact this
  rw [h, Int.cast_sub, EReal.coe_sub]

/-- A one-hot row times a column: on the extended reals `0 · x = 0` and `1 · x = x` whatever `x` is, so the sum over
    the groups is the entry at the hot one. -/
theorem sum_onehot_mul (g0 : Fin 32) (e f : Fin 32 → EReal) (he : ∀ g, e g = if g = g0 then 1 else 0) :
    ∑ g : Fin 32, e g * f g = f g0 := by
  rw [Finset.sum_eq_single g0]
  · rw [he g0, if_pos rfl, one_mul]
  · intro g _ hg
    rw [he g, if_neg hg, zero_mul]
  · intro h
    exact absurd (Finset.mem_univ g0) h

/-- The group of row `k`: the index word `g_idx[k]` read as a number, when every index word is below 32. -/
def groupOf (gi : (⟨1, ![4096]⟩ : Shape).Idx → BitVec 32) (hgi : ∀ k : Fin 4096, (gi (ix1 k)).toNat < 32) (k : Fin 4096) : Fin 32 :=
  ⟨(gi (ix1 k)).toNat, hgi k⟩

/-- THE RESULT as the one-hot program spells it, from the one-hot table `oh` [4096, 32], the packed weights `qw`
    [512, 11008], the converted zero points `zf` [32, 11008] and the scales `sc` [32, 11008]. -/
def viaOneHot (oh : (⟨2, ![4096, 32]⟩ : Shape).Idx → EReal) (qw : (⟨2, ![512, 11008]⟩ : Shape).Idx → BitVec 32)
    (zf sc : (⟨2, ![32, 11008]⟩ : Shape).Idx → EReal) (k : Fin 4096) (n : Fin 11008) : EReal :=
  (∑ g : Fin 32, oh (ix2 k g) * sc (ix2 g n))
    * ((FloatOps.sitofp .f32 (nibble (qw (ix2 ⟨k.val / 8, by omega⟩ n)) ⟨k.val % 8, by omega⟩) : Ideal .f32)
        - ∑ g : Fin 32, oh (ix2 k g) * zf (ix2 g n))

/-- THE RESULT as the indexing program spells it, from the group `g` of each row, the packed weights, the integer
    zero points `zi` [32, 11008] and the scales. -/
def viaIndex (g : Fin 4096 → Fin 32) (qw : (⟨2, ![512, 11008]⟩ : Shape).Idx → BitVec 32)
    (zi : (⟨2, ![32, 11008]⟩ : Shape).Idx → BitVec 32) (sc : (⟨2, ![32, 11008]⟩ : Shape).Idx → EReal) (k : Fin 4096) (n : Fin 11008) : EReal :=
  sc (ix2 (g k) n)
    * (FloatOps.sitofp .f32 (IntOp.subi (nibble (qw (ix2 ⟨k.val / 8, by omega⟩ n)) ⟨k.val % 8, by omega⟩) (zi (ix2 (g k) n))) : Ideal .f32)

/-- The two spellings agree when the one-hot table is the indicator of each row's group, the converted zero points
    are the conversions of the integer ones, and those are at most 15. -/
theorem viaOneHot_eq_viaIndex (g : Fin 4096 → Fin 32) (oh : (⟨2, ![4096, 32]⟩ : Shape).Idx → EReal)
    (qw : (⟨2, ![512, 11008]⟩ : Shape).Idx → BitVec 32) (zi : (⟨2, ![32, 11008]⟩ : Shape).Idx → BitVec 32)
    (zf sc : (⟨2, ![32, 11008]⟩ : Shape).Idx → EReal)
    (hoh : ∀ k g', oh (ix2 k g') = if g' = g k then 1 else 0)
    (hzf : ∀ j, zf j = (FloatOps.sitofp .f32 (zi j) : Ideal .f32))
    (hzi : ∀ j, (zi j).toNat ≤ 15) (k : Fin 4096) (n : Fin 11008) :
    viaOneHot oh qw zf sc k n = viaIndex g qw zi sc k n := by
  unfold viaOneHot viaIndex
  rw [sum_onehot_mul (g k) (fun g' => oh (ix2 k g')) (fun g' => sc (ix2 g' n)) (hoh k),
    sum_onehot_mul (g k) (fun g' => oh (ix2 k g')) (fun g' => zf (ix2 g' n)) (hoh k),
    hzf, sitofp_sub_of_le _ _ (nibble_le _ _) (hzi _)]

end Cert.Dequant

end
-- ==== Proof.KernelBlock.lean ====
/-
  One grid point of the one-hot program, read entry by entry.

  The body loads a [256, 32] block `e` of the one-hot table, a [32, 5504] block `x` of packed weights and [32, 5504]
  blocks `s`, `z` of the scales and the converted zero points, and stores

      (e · s) ∘ (w − e · z),        w[p, q] = field (p mod 8) of x[p / 8, q],

  the two products matrix products over the 32 groups into a zero accumulator (on the extended reals: plain sums), the
  unpacked weights a [32, 8, 5504] array of fields — each packed row broadcast along a new axis of eight and shifted
  by four times its position there — laid out again as [256, 5504]: row p of the block is (packed row p / 8, field
  p mod 8), as row-major order has it.
-/
import proofs.«427311_j63900523430425_3_alg».proof.Proof.Gen.KernelIdeal.Skeleton
import proofs.«427311_j63900523430425_3_alg».proof.Proof.Spec
import Idealize.ShloMosaic.Lib.Pipeline.Value
import Idealize.ShloMosaic.Lib.KernelVsHost

noncomputable section

namespace Cert.Dequant.Block

open Idealize.ShloMosaic Idealize.ShloMosaic.ValueIdx Cert.KernelIdeal Cert.KernelIdeal.Gen

/-! ## The matrix product with a one-hot block, as a sum over the groups -/

theorem lhs_0 (i : S256x5504.Idx) (q : dot_S256x32_S32x5504_S256x5504_1_0_0_1_n_n.contr.Idx) :
    (dot_S256x32_S32x5504_S256x5504_1_0_0_1_n_n.lhsIdx i q 0).val = (i 0).val := by
  unfold DotDims.lhsIdx
  rw [dif_neg (show ¬(0 : Fin S256x32.rank) ∈ dot_S256x32_S32x5504_S256x5504_1_0_0_1_n_n.lhsBatch by decide), dif_pos (show (0 : Fin S256x32.rank) ∈ dot_S256x32_S32x5504_S256x5504_1_0_0_1_n_n.lhsNonContracting by decide)]
  rfl

theorem lhs_1 (i : S256x5504.Idx) (q : dot_S256x32_S32x5504_S256x5504_1_0_0_1_n_n.contr.Idx) :
    (dot_S256x32_S32x5504_S256x5504_1_0_0_1_n_n.lhsIdx i q 1).val = (q ⟨0, by decide⟩).val :=
  dot_S256x32_S32x5504_S256x5504_1_0_0_1_n_n.lhsIdx_val_of_single rfl i q

theorem rhs_0 (i : S256x5504.Idx) (q : dot_S256x32_S32x5504_S256x5504_1_0_0_1_n_n.contr.Idx) :
    (dot_S256x32_S32x5504_S256x5504_1_0_0_1_n_n.rhsIdx i q 0).val = (q ⟨0, by decide⟩).val :=
  dot_S256x32_S32x5504_S256x5504_1_0_0_1_n_n.rhsIdx_val_of_single rfl i q

theorem rhs_1 (i : S256x5504.Idx) (q : dot_S256x32_S32x5504_S256x5504_1_0_0_1_n_n.contr.Idx) :
    (dot_S256x32_S32x5504_S256x5504_1_0_0_1_n_n.rhsIdx i q 1).val = (i 1).val := by
  unfold DotDims.rhsIdx
  rw [dif_neg (show ¬(1 : Fin S32x5504.rank) ∈ dot_S256x32_S32x5504_S256x5504_1_0_0_1_n_n.rhsBatch by decide), dif_pos (show (1 : Fin S32x5504.rank) ∈ dot_S256x32_S32x5504_S256x5504_1_0_0_1_n_n.rhsNonContracting by decide)]
  rfl

/-- Entry (p, q) of a [256, 32] × [32, 5504] product into a zero accumulator is the sum over the 32 groups. -/
theorem product_apply (a : FVec Ideal S256x32 .f32) (b : FVec Ideal S32x5504 .f32) (p : Fin 256) (q : Fin 5504) :
    matmul dot_S256x32_S32x5504_S256x5504_1_0_0_1_n_n (some .fp32) a b (constant S256x5504 .f32 0x00000000#32) (ix2 p q)
      = ∑ g : Fin 32, a (ix2 p g) * b (ix2 g q) := by
  simp only [matmul]
  rw [Ideal.matmul_constant_zero_apply, ← Equiv.sum_comp (ValueIdx.contrEquiv1 dot_S256x32_S32x5504_S256x5504_1_0_0_1_n_n 32 rfl rfl).symm]
  refine Finset.sum_congr rfl fun k _ => ?_
  have hk := ValueIdx.contrEquiv1_symm_val dot_S256x32_S32x5504_S256x5504_1_0_0_1_n_n 32 rfl rfl k
  have el : dot_S256x32_S32x5504_S256x5504_1_0_0_1_n_n.lhsIdx (ix2 p q) ((ValueIdx.contrEquiv1 dot_S256x32_S32x5504_S256x5504_1_0_0_1_n_n 32 rfl rfl).symm k) = ix2 p k := funext fun a => Fin.ext (by
    match a with
    | ⟨0, _⟩ => exact lhs_0 _ _
    | ⟨1, _⟩ => exact (lhs_1 _ _).trans hk)
  have er : dot_S256x32_S32x5504_S256x5504_1_0_0_1_n_n.rhsIdx (ix2 p q) ((ValueIdx.contrEquiv1 dot_S256x32_S32x5504_S256x5504_1_0_0_1_n_n 32 rfl rfl).symm k) = ix2 k q := funext fun a => Fin.ext (by
    match a with
    | ⟨0, _⟩ => exact (rhs_0 _ _).trans hk
    | ⟨1, _⟩ => exact rhs_1 _ _)
  rw [el, er]

/-! ## The unpacked weights of a block -/

/-- Row p of the unpacked block is field p mod 8 of packed row p / 8. -/
theorem fields_apply (x : IVec S32x5504 32) (p : Fin 256) (q : Fin 5504) :
    shapeCast S256x5504
        (andi (shrsi (broadcastTo S32x8x5504 (shapeCast S32x1x5504 x shapeCasts_S32x5504_S32x1x5504) broadcasts_S32x1x5504_S32x8x5504)
                (muli (iota .tc S32x8x5504 32 [1] iota_S32x8x5504_d1_w32) (broadcast S32x8x5504 4#32)))
          (broadcast S32x8x5504 15#32))
        shapeCasts_S32x8x5504_S256x5504 (ix2 p q)
      = nibble (x (ix2 ⟨p.val / 8, by omega⟩ q)) ⟨p.val % 8, by omega⟩ := by
  have hp := p.isLt
  have hq := q.isLt
  refine (shapeCast_apply _ shapeCasts_S32x8x5504_S256x5504 (ix2 p q)
    (ix3 (⟨p.val / 8, by omega⟩ : Fin 32) (⟨p.val % 8, by omega⟩ : Fin 8) q) ?_).trans ?_
  · rw [Shape.rowMajor_val_three, Shape.rowMajor_val_two]
    show (p.val / 8 * 8 + p.val % 8) * 5504 + q.val = p.val * 5504 + q.val
    omega
  · show IntOp.andi (IntOp.shrsi .vector
        (broadcastTo S32x8x5504 (shapeCast S32x1x5504 x shapeCasts_S32x5504_S32x1x5504) broadcasts_S32x1x5504_S32x8x5504
          (ix3 (⟨p.val / 8, by omega⟩ : Fin 32) (⟨p.val % 8, by omega⟩ : Fin 8) q))
        (IntOp.muli (iota .tc S32x8x5504 32 [1] iota_S32x8x5504_d1_w32 (ix3 (⟨p.val / 8, by omega⟩ : Fin 32) (⟨p.val % 8, by omega⟩ : Fin 8) q)) 4#32)) 15#32 = _
    rw [iota_single_apply]
    have e1 : broadcastTo S32x8x5504 (shapeCast S32x1x5504 x shapeCasts_S32x5504_S32x1x5504) broadcasts_S32x1x5504_S32x8x5504
          (ix3 (⟨p.val / 8, by omega⟩ : Fin 32) (⟨p.val % 8, by omega⟩ : Fin 8) q) = x (ix2 ⟨p.val / 8, by omega⟩ q) := by
      refine (broadcastTo_apply _ broadcasts_S32x1x5504_S32x8x5504 _ (ix3 (⟨p.val / 8, by omega⟩ : Fin 32) (0 : Fin 1) q) (fun a => ?_)).trans ?_
      · match a with
        | ⟨0, _⟩ => show p.val / 8 = if (32 : Nat) = 1 then 0 else p.val / 8; rw [if_neg (by decide)]
        | ⟨1, _⟩ => show 0 = if (1 : Nat) = 1 then 0 else p.val % 8; rw [if_pos rfl]
        | ⟨2, _⟩ => show q.val = if (5504 : Nat) = 1 then 0 else q.val; rw [if_neg (by decide)]
      · refine shapeCast_apply x shapeCasts_S32x5504_S32x1x5504 _ (ix2 ⟨p.val / 8, by omega⟩ q) ?_
        rw [Shape.rowMajor_val_three, Shape.rowMajor_val_two]
        show p.val / 8 * 5504 + q.val = (p.val / 8 * 1 + 0) * 5504 + q.val
        omega
    rw [e1]
    show IntOp.andi (IntOp.shrsi .vector (x (ix2 ⟨p.val / 8, by omega⟩ q)) (IntOp.muli (BitVec.ofNat 32 (p.val % 8)) 4#32)) 15#32 = _
    rw [shamt_kernel ⟨p.val % 8, by omega⟩, shrsi_unit .vector .host]
    rfl

/-! ## The stored value -/

/-- What the body stores, at (p, q), from the four loaded blocks. -/
theorem stored_apply (x : Vec Ideal S32x5504 .i32) (e : Vec Ideal S256x32 .f32) (s z : Vec Ideal S32x5504 .f32) (p : Fin 256) (q : Fin 5504) :
    k0_pay1 (F := Ideal) x e s z (ix2 p q)
      = (∑ g : Fin 32, e (ix2 p g) * s (ix2 g q))
        * ((FloatOps.sitofp .f32 (nibble (x (ix2 ⟨p.val / 8, by omega⟩ q)) ⟨p.val % 8, by omega⟩) : Ideal .f32)
            - ∑ g : Fin 32, e (ix2 p g) * z (ix2 g q)) := by
  unfold k0_pay1
  simp only [shapeCast_self]
  show matmul dot_S256x32_S32x5504_S256x5504_1_0_0_1_n_n (some .fp32) e s (constant S256x5504 .f32 0x00000000#32) (ix2 p q)
      * ((FloatOps.sitofp .f32 (shapeCast S256x5504
        (andi (shrsi (broadcastTo S32x8x5504 (shapeCast S32x1x5504 x shapeCasts_S32x5504_S32x1x5504) broadcasts_S32x1x5504_S32x8x5504)
                (muli (iota .tc S32x8x5504 32 [1] iota_S32x8x5504_d1_w32) (broadcast S32x8x5504 4#32)))
          (broadcast S32x8x5504 15#32))
        shapeCasts_S32x8x5504_S256x5504 (ix2 p q)) : Ideal .f32)
        - matmul dot_S256x32_S32x5504_S256x5504_1_0_0_1_n_n (some .fp32) e z (constant S256x5504 .f32 0x00000000#32) (ix2 p q)) = _
  rw [product_apply, product_apply, fields_apply]

end Cert.Dequant.Block

end
-- ==== Proof.KernelValue.lean ====
/-
  From the grid's blocks to the whole result of the one-hot program.

  The grid is 2 × 16: point (nj, ni) takes rows 256 ni … 256 ni + 255 of the one-hot table, packed rows
  32 ni … 32 ni + 31 and columns 5504 nj … 5504 nj + 5503 of the weights, the same columns of the scales and of the
  zero points, and writes block (ni, nj) of the [4096, 11008] result. Row k = 256 ni + p of the result unpacks field
  k mod 8 = p mod 8 of packed row k / 8 = 32 ni + p / 8, so every block is the restriction of ONE function of the whole
  arrays (`whole`, Spec's `viaOneHot` at the arrays the region finds), the 32 blocks tile the result, and the array
  after the run is that function.
-/
import proofs.«427311_j63900523430425_3_alg».proof.Proof.Gen.KernelIdeal.Value
import proofs.«427311_j63900523430425_3_alg».proof.Proof.KernelBlock
import proofs.«427311_j63900523430425_3_alg».proof.Proof.Spec
import Idealize.ShloMosaic.Lib.Pipeline.Value

set_option maxRecDepth 16384

noncomputable section

open Idealize.ShloMosaic Idealize.ShloMosaic.TcCoe Idealize.SL.Sem
open Idealize.ShloMosaic.Pipeline (Dat)

namespace Cert.Dequant.Kernel

open Cert.KernelIdeal Cert.KernelIdeal.Gen Cert.KernelIdeal.Value Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, at their literal types -/

abbrev oneHotArr (c : Dev nD) : FVec Ideal S4096x32 .f32 := V m c main_v20
abbrev weightArr (c : Dev nD) : IVec S512x11008 32 := V m c main_arg0
abbrev scaleArr (c : Dev nD) : FVec Ideal S32x11008 .f32 := V m c main_arg2
abbrev zeroArr (c : Dev nD) : FVec Ideal S32x11008 .f32 := V m c main_v13

/-- The whole result as one function of those arrays. -/
def whole (c : Dev nD) : Buf (Elt Ideal) ((c : Thread nD τ).loc main_v21) := fun i =>
  viaOneHot (oneHotArr m c) (weightArr m c) (zeroArr m c) (scaleArr m c) ⟨(i 0).val, idx2_lt0 i⟩ ⟨(i 1).val, idx2_lt1 i⟩

/-! ## Which block each window takes at a point -/

/-- The printed index maps, decided over the 32 points: the one-hot rows and the packed rows move with the result's
    row block, the weights', scales' and zero points' columns with its column block. -/
theorem idx_facts : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = win0_4.index t (1 : Fin 2)
    ∧ win0_2.index t (0 : Fin 2) = 0
    ∧ win0_2.index t (1 : Fin 2) = win0_4.index t (1 : Fin 2)
    ∧ win0_3.index t (0 : Fin 2) = 0
    ∧ win0_3.index t (1 : Fin 2) = win0_4.index t (1 : Fin 2)
    ∧ win0_4.index t (0 : Fin 2) ≤ 15 ∧ win0_4.index t (1 : Fin 2) ≤ 1 :=
  (by decide +kernel : ∀ t : Fin grid0.N, _)

/-- Every block of the result is some point's. -/
theorem idx_onto : ∀ (q0 : Fin 16) (q1 : Fin 2), ∃ t : Fin cfg0.N, win0_4.index t = ![q0.val, q1.val] :=
  (by decide +kernel : ∀ (q0 : Fin 16) (q1 : Fin 2), ∃ t : Fin grid0.N, win0_4.index t = ![q0.val, q1.val])

/-! ## Each input block, read where the result's block says -/

theorem oneHot_blk (c : Dev nD) (t : Fin cfg0.N) (p : Fin 256) (g : Fin 32) (k : Fin 4096)
    (hk : k.val = win0_4.index t (0 : Fin 2) * 256 + p.val) :
    iblk m c 0 t (ix2 p g) = oneHotArr m c (ix2 k g) := by
  obtain ⟨e0, e1, -⟩ := idx_facts t
  show V m c main_v20 (((cfg0.win 0).blk t).view.emb (ix2 p g)) = V m c main_v20 (ix2 k g)
  refine congrArg _ (funext fun a => Fin.ext ?_)
  match a with
  | ⟨0, _⟩ => show win0_0.index t (0 : Fin 2) * 256 + 1 * p.val = k.val; omega
  | ⟨1, _⟩ => show win0_0.index t (1 : Fin 2) * 32 + 1 * g.val = g.val; omega

theorem weight_blk (c : Dev nD) (t : Fin cfg0.N) (a : Fin 32) (q : Fin 5504) (r : Fin 512) (n : Fin 11008)
    (hr : r.val = win0_4.index t (0 : Fin 2) * 32 + a.val) (hn : n.val = win0_4.index t (1 : Fin 2) * 5504 + q.val) :
    iblk m c 1 t (ix2 a q) = weightArr m c (ix2 r n) := by
  obtain ⟨-, -, e2, e3, -⟩ := idx_facts t
  show V m c main_arg0 (((cfg0.win 1).blk t).view.emb (ix2 a q)) = V m c main_arg0 (ix2 r n)
  refine congrArg _ (funext fun b => Fin.ext ?_)
  match b with
  | ⟨0, _⟩ => show win0_1.index t (0 : Fin 2) * 32 + 1 * a.val = r.val; omega
  | ⟨1, _⟩ => show win0_1.index t (1 : Fin 2) * 5504 + 1 * q.val = n.val; omega

theorem scale_blk (c : Dev nD) (t : Fin cfg0.N) (g : Fin 32) (q : Fin 5504) (n : Fin 11008)
    (hn : n.val = win0_4.index t (1 : Fin 2) * 5504 + q.val) :
    iblk m c 2 t (ix2 g q) = scaleArr m c (ix2 g n) := by
  obtain ⟨-, -, -, -, e4, e5, -⟩ := idx_facts t
  show V m c main_arg2 (((cfg0.win 2).blk t).view.emb (ix2 g q)) = V m c main_arg2 (ix2 g n)
  refine congrArg _ (funext fun b => Fin.ext ?_)
  match b with
  | ⟨0, _⟩ => show win0_2.index t (0 : Fin 2) * 32 + 1 * g.val = g.val; omega
  | ⟨1, _⟩ => show win0_2.index t (1 : Fin 2) * 5504 + 1 * q.val = n.val; omega

theorem zero_blk (c : Dev nD) (t : Fin cfg0.N) (g : Fin 32) (q : Fin 5504) (n : Fin 11008)
    (hn : n.val = win0_4.index t (1 : Fin 2) * 5504 + q.val) :
    iblk m c 3 t (ix2 g q) = zeroArr m c (ix2 g n) := by
  obtain ⟨-, -, -, -, -, -, e6, e7, -⟩ := idx_facts t
  show V m c main_v13 (((cfg0.win 3).blk t).view.emb (ix2 g q)) = V m c main_v13 (ix2 g n)
  refine congrArg _ (funext fun b => Fin.ext ?_)
  match b with
  | ⟨0, _⟩ => show win0_3.index t (0 : Fin 2) * 32 + 1 * g.val = g.val; omega
  | ⟨1, _⟩ => show win0_3.index t (1 : Fin 2) * 5504 + 1 * q.val = n.val; omega

/-! ## What a point stores is the whole function on its block -/

/-- Entry (p, q) of what point `t` stores is the whole function at row `256 ni + p`, column `5504 nj + q`. -/
theorem stored_at (c : Dev nD) (t : Fin cfg0.N) (p : Fin 256) (q : Fin 5504) (k : Fin 4096) (n : Fin 11008)
    (hk : k.val = win0_4.index t (0 : Fin 2) * 256 + p.val) (hn : n.val = win0_4.index t (1 : Fin 2) * 5504 + q.val) :
    k0_pay1 (F := Ideal) (iblk m c 1 t) (iblk m c 0 t) (iblk m c 2 t) (iblk m c 3 t) (ix2 p q)
      = viaOneHot (oneHotArr m c) (weightArr m c) (zeroArr m c) (scaleArr m c) k n := by
  refine (Block.stored_apply (iblk m c 1 t) (iblk m c 0 t) (iblk m c 2 t) (iblk m c 3 t) p q).trans ?_
  unfold viaOneHot
  have hp := p.isLt
  have e1 : ∀ g : Fin 32, iblk m c 0 t (ix2 p g) = oneHotArr m c (ix2 k g) := fun g => oneHot_blk m c t p g k hk
  have e2 : ∀ g : Fin 32, iblk m c 2 t (ix2 g q) = scaleArr m c (ix2 g n) := fun g => scale_blk m c t g q n hn
  have e3 : ∀ g : Fin 32, iblk m c 3 t (ix2 g q) = zeroArr m c (ix2 g n) := fun g => zero_blk m c t g q n hn
  have e4 : iblk m c 1 t (ix2 (⟨p.val / 8, by omega⟩ : Fin 32) q) = weightArr m c (ix2 ⟨k.val / 8, by omega⟩ n) :=
    weight_blk m c t ⟨p.val / 8, by omega⟩ q ⟨k.val / 8, by omega⟩ n (by show k.val / 8 = _ * 32 + p.val / 8; omega) hn
  have e5 : (⟨p.val % 8, by omega⟩ : Fin 8) = ⟨k.val % 8, by omega⟩ := Fin.ext (by show p.val % 8 = k.val % 8; omega)
  refine congrArg₂ (· * ·) (Finset.sum_congr rfl fun g _ => by rw [e1 g, e2 g]) (congrArg₂ (· - ·) ?_ (Finset.sum_congr rfl fun g _ => by rw [e1 g, e3 g]))
  rw [e4, e5]

/-- WHAT POINT `t` WRITES BACK is block `t` of the whole function. -/
theorem flushed_eq (c : Dev nD) (t : Fin cfg0.N) :
    (dats m 0 c).flushed 4 t = ((cfg0.win 4).blk t).view.read (Elt Ideal) (whole m c) := by
  rw [flushed4]
  unfold out0_4
  rw [View.canon_unit_zero hz]
  simp only [View.ld_unit_zero (S := S32x5504) hz, View.ld_unit_zero (S := S256x32) hz]
  funext j
  obtain ⟨p, q, rfl⟩ : ∃ (p : Fin 256) (q : Fin 5504), j = ix2 p q := ⟨j 0, j 1, eq_ix2 j⟩
  obtain ⟨-, -, -, -, -, -, -, -, b0, b1⟩ := idx_facts t
  have hp := p.isLt
  have hq := q.isLt
  refine (stored_at m c t p q ⟨win0_4.index t (0 : Fin 2) * 256 + p.val, by omega⟩ ⟨win0_4.index t (1 : Fin 2) * 5504 + q.val, by omega⟩ rfl rfl).trans ?_
  show _ = whole m c (((cfg0.win 4).blk t).view.emb (ix2 p q))
  unfold whole
  refine congrArg₂ (viaOneHot (oneHotArr m c) (weightArr m c) (zeroArr m c) (scaleArr m c)) (Fin.ext ?_) (Fin.ext ?_)
  · show win0_4.index t (0 : Fin 2) * 256 + p.val = win0_4.index t (0 : Fin 2) * 256 + 1 * p.val; omega
  · show win0_4.index t (1 : Fin 2) * 5504 + q.val = win0_4.index t (1 : Fin 2) * 5504 + 1 * q.val; omega

/-! ## The blocks tile the result -/

/-- An index of the result is in point `t`'s block iff each coordinate is in the block's range on its axis. -/
theorem mem_blk (t : Fin cfg0.N) (i : S4096x11008.Idx) :
    i ∈ ((cfg0.win 4).blk t).view.set ↔ ∀ a : Fin 2, win0_4.index t a * S256x5504.size a ≤ (i a).val ∧ (i a).val < win0_4.index t a * S256x5504.size a + S256x5504.size a := by
  show i ∈ ((View.whole main_v21).slice (win0_4.rect t)).set ↔ _
  rw [View.set_slice_whole, Rect.mem_set_unit]
  exact Iff.rfl

/-- Every index of the result is in the block of the point (row / 256, column / 5504). -/
theorem covered (i : S4096x11008.Idx) :
    ∃ t : Fin cfg0.N, (cfg0.win 4).flush t = true ∧ i ∈ ((cfg0.win 4).blk t).view.set := by
  have hi0 : (i 0).val < 4096 := (i 0).isLt
  have hi1 : (i 1).val < 11008 := (i 1).isLt
  obtain ⟨t, ht⟩ := idx_onto ⟨(i 0).val / 256, by omega⟩ ⟨(i 1).val / 5504, by omega⟩
  have q0 : win0_4.index t (0 : Fin 2) = (i 0).val / 256 := congrFun ht 0
  have q1 : win0_4.index t (1 : Fin 2) = (i 1).val / 5504 := congrFun ht 1
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 5504 ≤ (i 1).val ∧ (i 1).val < win0_4.index t (1 : Fin 2) * 5504 + 5504; omega

/-- THE ARRAY after the run is the whole function. -/
theorem final (c : Dev nD) : (dats m 0 c).arrAt 4 cfg0.N = whole m c :=
  (dats m 0 c).arrAt_eq_of_cover 4 (whole m c) (fun t _ => flushed_eq m c t) covered

/-! ## The run, read -/

/-- Every weakly fair execution of the one-hot program ends with the result array at the whole function and the
    arguments unchanged. -/
theorem run : θ_run defs (onTc (τ := τ) (main (F := Ideal))) ⟨m, fun _ => 0, ρ⟩ fun r => ∀ c : Dev nD,
      r.2.mem ((c : Thread nD τ).loc main_v21) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Dequant.Kernel

end
-- ==== Proof.RefValue.lean ====
import proofs.«427311_j63900523430425_3_alg».proof.Proof.Gen.ReferenceIdeal.Read
import proofs.«427311_j63900523430425_3_alg».proof.Proof.Spec
import Idealize.ShloMosaic.Lib.StableHlo.Predicate

noncomputable section

namespace Cert.Dequant.Ref

open Idealize.ShloMosaic Idealize.ShloMosaic.ValueIdx Cert.ReferenceIdeal Cert.ReferenceIdeal.Read

/-- The integer zero points (the reference's unpacked table) are at most 15. -/
theorem zeroPoint_le (x1 : (⟨S32x1376, .i32⟩ : BufTy).Contents (Elt Ideal)) (j : S32x11008.Idx) :
    (val_main_v12 (F := Ideal) x1 j).toNat ≤ 15 := by
  rw [val_main_v12_apply, val_main_v11_apply, val_main_v10_apply, val_main_c_1_apply]
  exact Cert.Dequant.andi_15_le _

/-- The unpacked weight at (k, n): field k mod 8 of the packed word at (k / 8, n). The reshape's flat position
    k · 11008 + n splits as ((k / 8) · 8 + k mod 8) · 11008 + n. -/
theorem weight_apply (x0 : (⟨S512x11008, .i32⟩ : BufTy).Contents (Elt Ideal)) (k : Fin 4096) (n : Fin 11008) :
    val_main_v20 (F := Ideal) x0 (ix2 k n)
      = nibble (x0 (ix2 ⟨k.val / 8, by omega⟩ n)) ⟨k.val % 8, by omega⟩ := by
  have hk : k.val < 4096 := k.isLt
  have hn : n.val < 11008 := n.isLt
  rw [val_main_v20_apply, val_main_v19_apply, val_main_v17_apply, val_main_v15_apply, val_main_v13_apply,
    val_main_v16_apply, val_main_v14_apply, val_main_v18_apply, val_main_c_2_apply, val_main_v4_apply,
    val_main_v3_apply, val_main_c_0_apply, val_main_v2_apply, val_main_v1_apply, val_main_c_apply, val_main_v0_apply]
  have e1 : idx_main_v13 (idx_main_v15 (idx_main_v20 (ix2 k n))) = ix2 (⟨k.val / 8, by omega⟩ : Fin 512) n := by
    funext a
    match a with
    | ⟨0, _⟩ => exact Fin.ext (show (k.val * 11008 + n.val) / 88064 = k.val / 8 by omega)
    | ⟨1, _⟩ => exact Fin.ext (show (k.val * 11008 + n.val) % 11008 = n.val by omega)
  have e2 : ((idx_main_v14 (idx_main_v16 (idx_main_v20 (ix2 k n)))) 0).val = k.val % 8 := by
    show (k.val * 11008 + n.val) / 11008 % 8 = k.val % 8
    omega
  rw [e1, e2]
  exact congrArg (fun s => IntOp.andi (IntOp.shrsi .host (x0 (ix2 (⟨k.val / 8, by omega⟩ : Fin 512) n)) s) 15#32)
    (Cert.Dequant.shamt_host ⟨k.val % 8, by omega⟩)

/-- A start index below 32 is not negative, so the reference's wrap-around of negative indices leaves it as it is. -/
theorem wrap_of_lt (w a : BitVec 32) (hw : w.toNat < 32) :
    Scalar.select (IntOp.cmpi .slt w 0#32) a w = w := by
  have h0 : IntOp.cmpi .slt w 0#32 = 0#1 := by
    refine eq_zero_of_ne_one ?_
    rw [StableHlo.Predicate.slt_iff_toNat (by omega) (by decide)]
    exact Nat.not_lt_zero _
  rw [h0, select_zero]

/-- The row gather read at (k, n): row g of the table, when the start index of row k is the word of g < 32. The start
    index is read signed and clamped into [0, 31]; a number below 32 is its own clamp. On the second axis there is no
    start index and no batching, only the offset n. -/
theorem gather_rows_apply {α : Type} (x : S32x11008.Idx → α) (idx : IVec S4096x1 32) (k : Fin 4096) (n : Fin 11008)
    (g : Fin 32) (hg : idx (ix2 k (0 : Fin 1)) = BitVec.ofNat 32 g.val) :
    Host.gather gather_S32x11008_S4096x1_S4096x11008_1_0_n_n_0_1_111008 x idx (ix2 k n) = x (ix2 g n) := by
  have hgl : g.val < 32 := g.isLt
  unfold Host.gather
  congr 1
  funext a
  refine Fin.ext ?_
  match a with
  | ⟨0, _⟩ =>
    show GatherDims.start gather_S32x11008_S4096x1_S4096x11008_1_0_n_n_0_1_111008 (ix2 k n) idx 0
        + GatherDims.batchCoord gather_S32x11008_S4096x1_S4096x11008_1_0_n_n_0_1_111008 (ix2 k n) 0
        + GatherDims.offCoord gather_S32x11008_S4096x1_S4096x11008_1_0_n_n_0_1_111008 (ix2 k n) 0 = g.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x11008_S4096x1_S4096x11008_1_0_n_n_0_1_111008.startIndexMap from
      List.mem_singleton.mpr rfl)]
    have hsi : gather_S32x11008_S4096x1_S4096x11008_1_0_n_n_0_1_111008.siIdx (ix2 k n)
        ⟨List.idxOf (0 : Fin 2) gather_S32x11008_S4096x1_S4096x11008_1_0_n_n_0_1_111008.startIndexMap,
          List.idxOf_lt_length_iff.2 (List.mem_singleton.mpr rfl)⟩ = ix2 k (0 : Fin 1) := by
      funext b; refine Fin.ext ?_
      match b with
      | ⟨0, _⟩ => rfl
      | ⟨1, _⟩ => rfl
    rw [hsi, hg, StableHlo.Predicate.toInt_ofNat_small g.val (by omega), Int.toNat_natCast]
    show min g.val (32 - 1) = g.val
    omega
  | ⟨1, _⟩ =>
    show GatherDims.start gather_S32x11008_S4096x1_S4096x11008_1_0_n_n_0_1_111008 (ix2 k n) idx 1
        + GatherDims.batchCoord gather_S32x11008_S4096x1_S4096x11008_1_0_n_n_0_1_111008 (ix2 k n) 1
        + GatherDims.offCoord gather_S32x11008_S4096x1_S4096x11008_1_0_n_n_0_1_111008 (ix2 k n) 1 = n.val
    rw [GatherDims.batchCoord_eq_zero _ _ _ List.not_mem_nil]
    unfold GatherDims.start
    rw [dif_neg (show (1 : Fin 2) ∉ gather_S32x11008_S4096x1_S4096x11008_1_0_n_n_0_1_111008.startIndexMap by decide)]
    simp only [Nat.add_zero, Nat.zero_add]
    rfl

/-- The start index the first gather reads for row k: the index word itself. -/
theorem start26_apply (x3 : (⟨S4096, .i32⟩ : BufTy).Contents (Elt Ideal)) (k : Fin 4096) (hk : (x3 (ix1 k)).toNat < 32) :
    val_main_v26 (F := Ideal) x3 (ix2 k (0 : Fin 1)) = BitVec.ofNat 32 (x3 (ix1 k)).toNat := by
  have e : idx_main_v26 (ix2 k (0 : Fin 1)) = ix1 k := by
    funext a
    match a with
    | ⟨0, _⟩ => rfl
  rw [val_main_v26_apply, val_main_v25_apply, val_main_v22_apply, val_main_v21_apply, val_main_c_3_apply, e,
    wrap_of_lt _ _ hk, BitVec.ofNat_toNat, BitVec.setWidth_eq]

/-- The start index the second gather reads for row k: the same word. -/
theorem start33_apply (x3 : (⟨S4096, .i32⟩ : BufTy).Contents (Elt Ideal)) (k : Fin 4096) (hk : (x3 (ix1 k)).toNat < 32) :
    val_main_v33 (F := Ideal) x3 (ix2 k (0 : Fin 1)) = BitVec.ofNat 32 (x3 (ix1 k)).toNat := by
  have e : idx_main_v33 (ix2 k (0 : Fin 1)) = ix1 k := by
    funext a
    match a with
    | ⟨0, _⟩ => rfl
  rw [val_main_v33_apply, val_main_v32_apply, val_main_v29_apply, val_main_v28_apply, val_main_c_5_apply, e,
    wrap_of_lt _ _ hk, BitVec.ofNat_toNat, BitVec.setWidth_eq]

/-- The reference's result at (k, n), when every index word is below 32. -/
theorem result_apply (x0 : (⟨S512x11008, .i32⟩ : BufTy).Contents (Elt Ideal)) (x1 : (⟨S32x1376, .i32⟩ : BufTy).Contents (Elt Ideal))
    (x2 : (⟨S32x11008, .f32⟩ : BufTy).Contents (Elt Ideal)) (x3 : (⟨S4096, .i32⟩ : BufTy).Contents (Elt Ideal))
    (hx3 : ∀ k : Fin 4096, (x3 (ix1 k)).toNat < 32) (k : Fin 4096) (n : Fin 11008) :
    val_main_v37 (F := Ideal) x0 x1 x2 x3 (ix2 k n)
      = viaIndex (groupOf x3 hx3) x0 (val_main_v12 (F := Ideal) x1) x2 k n := by
  have h27 : val_main_v27 (F := Ideal) x2 x3 (ix2 k n) = x2 (ix2 (groupOf x3 hx3 k) n) :=
    gather_rows_apply x2 (val_main_v26 (F := Ideal) x3) k n (groupOf x3 hx3 k) (start26_apply x3 k (hx3 k))
  have h34 : val_main_v34 (F := Ideal) x1 x3 (ix2 k n) = val_main_v12 (F := Ideal) x1 (ix2 (groupOf x3 hx3 k) n) :=
    gather_rows_apply (val_main_v12 (F := Ideal) x1) (val_main_v33 (F := Ideal) x3) k n (groupOf x3 hx3 k)
      (start33_apply x3 k (hx3 k))
  rw [val_main_v37_apply, val_main_v36_apply, val_main_v35_apply, h27, h34, weight_apply]
  rfl

end Cert.Dequant.Ref

end
-- ==== Proof.HostTables.lean ====
import proofs.«427311_j63900523430425_3_alg».proof.Proof.Gen.KernelIdeal.Frame
import proofs.«427311_j63900523430425_3_alg».proof.Proof.Gen.ReferenceIdeal.Read
import Idealize.ShloMosaic.Lib.ValueIdx
import Idealize.ShloMosaic.Lib.StableHlo.Run
import Idealize.ShloMosaic.Lib.StableHlo.Predicate

noncomputable section

namespace Cert.Dequant.Host

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The two tables the host operations leave for the region, at their literal types: the converted zero points and the one-hot rows. -/
abbrev zeroTab (c : Dev nD) : FVec Ideal S32x11008 .f32 := V m c main_v13
abbrev oneHotTab (c : Dev nD) : FVec Ideal S4096x32 .f32 := V m c main_v20
/-- The launch memory's packed zero points and index words, at their literal types. -/
abbrev qzerosArg (c : Dev nD) : IVec S32x1376 32 := m ((c : Thread nD τ).loc main_arg1)
abbrev gidxArg (c : Dev nD) : IVec S4096 32 := m ((c : Thread nD τ).loc main_arg3)

/-- The converted zero-point table the region finds: the conversion of the unpacked table, the same host operations as the reference's. -/
theorem zeroPoints_eq (c : Dev nD) :
    zeroTab m c = sitofp .f32 (Cert.ReferenceIdeal.Read.val_main_v12 (F := Ideal) (qzerosArg m c)) := by
  dsimp only [zeroTab, Gen.V, Gen.hostOps0]
  after_results
  -- both sides are now the same thirteen operations composed over the packed zero points
  unfold Cert.ReferenceIdeal.Read.val_main_v12 Cert.ReferenceIdeal.Read.val_main_v11 Cert.ReferenceIdeal.Read.val_main_v10
    Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
    Cert.ReferenceIdeal.Read.val_main_c_1
  rfl

/-- The one-hot table as the host operations compose it: the comparison, converted, of the index words laid along the rows with the positions 0 … 31 laid along the columns. -/
theorem oneHotTab_eq (c : Dev nD) :
    oneHotTab m c = uitofp .f32 (cmpi .eq
      (broadcastInDim S4096x32 ![0, 1] bcast_S4096x1_S4096x32_0_1 (broadcastInDim S4096x1 ![0] bcast_S4096_S4096x1_0 (gidxArg m c)))
      (broadcastInDim S4096x32 ![0, 1] bcast_S1x32_S4096x32_0_1 (broadcastInDim S1x32 ![1] bcast_S32_S1x32_1 (iotaInDim S32 32 0)))) := by
  dsimp only [oneHotTab, Gen.V, Gen.hostOps0]
  after_results

/-- One comparison bit converted: 1 if the two words are equal, 0 if not. -/
theorem uitofp_bit (a b : BitVec 32) :
    (FloatOps.uitofp (F := Ideal) .f32 (IntOp.cmpi .eq a b) : EReal) = if a = b then (1 : EReal) else 0 := by
  by_cases h : a = b
  · rw [if_pos h, StableHlo.Predicate.cmpi_eq_iff.mpr h]
    show (((1#1 : BitVec 1).toNat : ℝ) : EReal) = 1
    simp
  · rw [if_neg h, eq_zero_of_ne_one (fun e => h (StableHlo.Predicate.cmpi_eq_iff.mp e))]
    show (((0#1 : BitVec 1).toNat : ℝ) : EReal) = 0
    simp

/-- The one-hot table the region finds, at (k, g): 1 if the index word of row k is g, else 0. -/
theorem oneHot_apply (c : Dev nD) (k : Fin 4096) (g : Fin 32) :
    oneHotTab m c (ix2 k g) = if gidxArg m c (ix1 k) = BitVec.ofNat 32 g.val then (1 : EReal) else 0 := by
  rw [oneHotTab_eq]
  -- the index (k, g) and the positions k, g in the spelling of the broadcast lemmas
  have e2 : StableHlo.Predicate.ij k g = ix2 k g := eq_ix2 (StableHlo.Predicate.ij k g)
  have ek : Shape.Idx.ofFin k = ix1 k := (Shape.Idx.eq_ofFin (ix1 k)).symm
  -- the index words laid along the rows read, at (k, g), the word of row k
  have hrow : broadcastInDim S4096x32 ![0, 1] bcast_S4096x1_S4096x32_0_1 (broadcastInDim S4096x1 ![0] bcast_S4096_S4096x1_0 (gidxArg m c)) (ix2 k g)
      = gidxArg m c (ix1 k) := by
    rw [← e2, ← ek]
    exact StableHlo.Predicate.bcast_rows bcast_S4096_S4096x1_0 bcast_S4096x1_S4096x32_0_1 (gidxArg m c) k g
  -- the positions laid along the columns read, at (k, g), the position g
  have hcol : broadcastInDim S4096x32 ![0, 1] bcast_S1x32_S4096x32_0_1 (broadcastInDim S1x32 ![1] bcast_S32_S1x32_1 (iotaInDim S32 32 0 : IVec S32 32)) (ix2 k g)
      = BitVec.ofNat 32 g.val := by
    rw [← e2]
    exact StableHlo.Predicate.bcast_cols bcast_S32_S1x32_1 bcast_S1x32_S4096x32_0_1 (iotaInDim S32 32 0) k g
  show FloatOps.uitofp (F := Ideal) .f32 (IntOp.cmpi .eq
      (broadcastInDim S4096x32 ![0, 1] bcast_S4096x1_S4096x32_0_1 (broadcastInDim S4096x1 ![0] bcast_S4096_S4096x1_0 (gidxArg m c)) (ix2 k g))
      (broadcastInDim S4096x32 ![0, 1] bcast_S1x32_S4096x32_0_1 (broadcastInDim S1x32 ![1] bcast_S32_S1x32_1 (iotaInDim S32 32 0 : IVec S32 32)) (ix2 k g))) = _
  rw [hrow, hcol]
  exact uitofp_bit _ _

end Cert.Dequant.Host

end
-- ==== Proof.PreDecode.lean ====
import proofs.«427311_j63900523430425_3_alg».proof.Pre_finite_inputs
import proofs.«427311_j63900523430425_3_alg».proof.Proof.Gen.Pre_finite_inputs
import Idealize.ShloMosaic.Lib.ValueIdx
import Idealize.ShloMosaic.Lib.ReduceAll

noncomputable section

namespace Cert.Dequant.Pre

open Idealize.ShloMosaic Idealize.ShloMosaic.ValueIdx Cert.Pre_finite_inputs

/-- A 32-bit word that is at least 0 and below n as a signed number (n < 2^31) is below n as an unsigned one:
    its sign bit is clear, so both readings are the same number. -/
theorem toNat_lt_of_signed_range (w : BitVec 32) (n : Nat) (hn : n < 2 ^ 31)
    (hge : IntOp.cmpi .sge w (0#32) = 1#1) (hlt : IntOp.cmpi .slt w (BitVec.ofNat 32 n) = 1#1) : w.toNat < n := by
  have h0 : (0#32).toInt ≤ w.toInt := IntOp.cmpi_sge.1 hge
  have h1 : w.toInt < (BitVec.ofNat 32 n).toInt := IntOp.cmpi_slt.1 hlt
  have hw := w.isLt
  rw [BitVec.toInt_eq_toNat_cond] at h0 h1
  rw [BitVec.toInt_eq_toNat_cond] at h0 h1
  simp only [BitVec.toNat_ofNat] at h0 h1
  have hn' : n % 2 ^ 32 = n := Nat.mod_eq_of_lt (by omega)
  rw [hn'] at h1
  split at h1 <;> split at h1 <;> simp at h0 <;> omega

/-- The rank-0 result has one index. -/
instance : Subsingleton S_.Idx := ⟨fun a b => funext fun d => d.elim0⟩

/-- The precondition decoded: every index word lies in 0 … 31. -/
theorem idx_lt_of_pre {F : FTy → Type} [FloatOps F] (a0 : IVec S512x11008 32) (a1 : IVec S32x1376 32) (a2 : FVec F S32x11008 .f32)
    (a3 : IVec S4096 32) (h : Cert.Pre_finite_inputs.fn (F := F) a0 a1 a2 a3 = fun _ => 1#1) :
    ∀ k : Fin 4096, (a3 (ix1 k)).toNat < 32 := by
  intro k
  have e := congrFun h ix0
  unfold Cert.Pre_finite_inputs.fn at e
  dsimp only at e
  -- the outer conjunction: only its second conjunct, the reduction over the index words, is used
  have e9 := (IntOp.andi_eq_one.1 e).2
  -- a reduction by and over all 4096 positions that gives 1 had a 1 at each of them
  have ek := Host.reduce_andi_all _ _ _ _ _ e9 (ix1 k)
  -- at position k: (g[k] ≥ 0) and (g[k] < 32), both signed, against broadcast constants
  obtain ⟨hge, hlt⟩ := IntOp.andi_eq_one.1 ek
  exact toNat_lt_of_signed_range (a3 (ix1 k)) 32 (by decide) hge hlt

end Cert.Dequant.Pre

end
-- ==== Proof.Bridge.lean ====
/-
  The two programs' results are one array.

  With every index word in 0 … 31 (the precondition), row k's group is g(k) = g_idx[k]. The one-hot program's result
  is Spec's `viaOneHot` at the tables its host operations leave: the one-hot table is the indicator of g(k) — its
  entry (k, g) compares the index word with g —, and its zero points are the conversions of the integer table both
  programs unpack from qzeros by the same operations, every entry at most 15. The indexing program's result is
  `viaIndex` at g and that integer table. Spec's `viaOneHot_eq_viaIndex` joins them.
-/
import proofs.«427311_j63900523430425_3_alg».proof.Proof.KernelValue
import proofs.«427311_j63900523430425_3_alg».proof.Proof.RefValue
import proofs.«427311_j63900523430425_3_alg».proof.Proof.HostTables
import proofs.«427311_j63900523430425_3_alg».proof.Proof.PreDecode
import proofs.«427311_j63900523430425_3_alg».proof.Defs

noncomputable section

open Idealize.ShloMosaic Idealize.ShloMosaic.TcCoe Idealize.SL.Sem Idealize.ShloMosaic.ValueIdx

namespace Cert.Dequant.Bridge

open Cert.KernelIdeal Cert.KernelIdeal.Gen

variable (m : (ℓ : Loc nD τ sig) → Buf (Elt Ideal) ℓ)

/-- A word below 32 is the word of the number g exactly when its number is g. -/
theorem word_eq_iff (w : BitVec 32) (hw : w.toNat < 32) (g : Fin 32) : w = BitVec.ofNat 32 g.val ↔ g = ⟨w.toNat, hw⟩ := by
  constructor
  · intro h
    apply Fin.ext
    show g.val = w.toNat
    rw [h, BitVec.toNat_ofNat]
    have := g.isLt
    omega
  · intro h
    rw [h]
    show w = BitVec.ofNat 32 w.toNat
    rw [BitVec.ofNat_toNat, BitVec.setWidth_eq]

/-- The one-hot program's whole result, under the precondition, in the indexing program's spelling. -/
theorem whole_eq (c : Dev nD) (hpre : Cert.Pre_KernelIdeal m) (k : Fin 4096) (n : Fin 11008) :
    Kernel.whole m c (ix2 k n)
      = viaIndex (groupOf (Host.gidxArg m c) (Pre.idx_lt_of_pre _ _ _ _ (hpre c))) (m ((c : Thread nD τ).loc main_arg0))
          (Cert.ReferenceIdeal.Read.val_main_v12 (F := Ideal) (Host.qzerosArg m c)) (m ((c : Thread nD τ).loc main_arg2)) k n := by
  have hgi := Pre.idx_lt_of_pre _ _ _ _ (hpre c)
  show viaOneHot (Kernel.oneHotArr m c) (Kernel.weightArr m c) (Kernel.zeroArr m c) (Kernel.scaleArr m c) k n = _
  have ew : Kernel.weightArr m c = m ((c : Thread nD τ).loc main_arg0) := V_main_arg0 m c
  have es : Kernel.scaleArr m c = m ((c : Thread nD τ).loc main_arg2) := V_main_arg2 m c
  rw [ew, es]
  refine viaOneHot_eq_viaIndex (groupOf (Host.gidxArg m c) hgi) (Kernel.oneHotArr m c) _
    (Cert.ReferenceIdeal.Read.val_main_v12 (F := Ideal) (Host.qzerosArg m c)) (Kernel.zeroArr m c) _ ?_ ?_ ?_ k n
  · intro k' g'
    refine (Host.oneHot_apply m c k' g').trans ?_
    exact if_congr (word_eq_iff _ (hgi k') g') rfl rfl
  · intro j
    exact congrFun (Host.zeroPoints_eq m c) j
  · intro j
    exact Ref.zeroPoint_le _ j

end Cert.Dequant.Bridge

end
-- ==== Proof.lean ====
/-
  GPTQ 4-bit dequantisation, out[k, n] = scales[g(k), n] · (w[k, n] − z[g(k), n]) with g(k) = g_idx[k]: a kernel that
  selects row g(k) of the scales and of the zero points by multiplying with a one-hot matrix built from g_idx, against a
  reference that indexes the two tables with g_idx.

  The claim holds where every index word lies in 0 … 31, the range of the 32-row tables it indexes (added to the
  precondition: outside it the reference's indexing clamps or wraps the index while the one-hot row is all zeros).
  The frames of the two kernel programs are the generated ones; the reference's is its generated run with the result
  dropped; the idealisation rewrote nothing. For the values: the kernel's result array is one function of the arrays its
  region finds (Proof/KernelBlock.lean: one grid point, entry by entry, the two matrix products as sums over the 32
  groups and the unpacked weights as fields of the packed words; Proof/KernelValue.lean: the 32 blocks tile the
  result); the reference's result at an index is read off its generated stages and its two gathers
  (Proof/RefValue.lean); the tables the kernel's host operations build are the indicator of g(k) and the conversion of
  the zero points both programs unpack alike (Proof/HostTables.lean); the precondition gives the index range
  (Proof/PreDecode.lean); and a one-hot sum selects, an integer difference of two fields converts to the difference
  (Proof/Spec.lean), which joins the two spellings (Proof/Bridge.lean).
-/
import proofs.«427311_j63900523430425_3_alg».proof.Defs
import proofs.«427311_j63900523430425_3_alg».proof.Proof.Gen.Kernel
import proofs.«427311_j63900523430425_3_alg».proof.Proof.Gen.Kernel.Skeleton
import proofs.«427311_j63900523430425_3_alg».proof.Proof.Gen.Kernel.Launch
import proofs.«427311_j63900523430425_3_alg».proof.Proof.Gen.Kernel.Points
import proofs.«427311_j63900523430425_3_alg».proof.Proof.Gen.Kernel.Frame
import proofs.«427311_j63900523430425_3_alg».proof.Proof.Gen.KernelIdeal
import proofs.«427311_j63900523430425_3_alg».proof.Proof.Gen.KernelIdeal.Skeleton
import proofs.«427311_j63900523430425_3_alg».proof.Proof.Gen.KernelIdeal.Launch
import proofs.«427311_j63900523430425_3_alg».proof.Proof.Gen.KernelIdeal.Points
import proofs.«427311_j63900523430425_3_alg».proof.Proof.Gen.KernelIdeal.Frame
import proofs.«427311_j63900523430425_3_alg».proof.Proof.Gen.ReferenceIdeal
import proofs.«427311_j63900523430425_3_alg».proof.Proof.Gen.Pre_finite_inputs
import proofs.«427311_j63900523430425_3_alg».proof.Proof.Gen.KernelIdeal.Value
import proofs.«427311_j63900523430425_3_alg».proof.Proof.Gen.ReferenceIdeal.Run
import proofs.«427311_j63900523430425_3_alg».proof.Proof.Gen.ReferenceIdeal.Read
import proofs.«427311_j63900523430425_3_alg».proof.Proof.Bridge
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealised programs end with the same [4096, 11008] array: the kernel's is one function of its region's
    arrays, the reference's is read index by index off its stages, and under the precondition the two are the same
    number at every (k, n). -/
theorem algebraic : Cert.algebraic_KernelIdeal_ReferenceIdeal := by
  intro m ρ m' ρ' hpre hagree
  refine ⟨fun c => Cert.Dequant.Kernel.whole m c, Cert.Dequant.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2.1, (hagree c).2.2.1, (hagree c).2.2.2]
  funext i
  obtain ⟨k, n, rfl⟩ : ∃ (k : Fin 4096) (n : Fin 11008), i = ix2 k n := ⟨i 0, i 1, eq_ix2 i⟩
  exact (Cert.Dequant.Ref.result_apply _ _ _ _ (Cert.Dequant.Pre.idx_lt_of_pre _ _ _ _ (hpre c)) k n).trans
    (Cert.Dequant.Bridge.whole_eq m c hpre k n).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
